-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S128x512 : Shape := ⟨2, ![128, 512]⟩
abbrev S64x128 : Shape := ⟨2, ![64, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16384x512 .f32) (main_arg1 : FVec F S128x512 .f32) (main_arg2 : FVec F S64x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S16384x512 : Shape := ⟨2, ![16384, 512]⟩
abbrev S128x512 : Shape := ⟨2, ![128, 512]⟩
abbrev S64x128 : Shape := ⟨2, ![64, 128]⟩
abbrev S4x1x4096 : Shape := ⟨3, ![4, 1, 4096]⟩
abbrev S16384 : Shape := ⟨1, ![16384]⟩
abbrev S4096x512 : Shape := ⟨2, ![4096, 512]⟩
abbrev S1x1x4096 : Shape := ⟨3, ![1, 1, 4096]⟩
abbrev S128x4096 : Shape := ⟨2, ![128, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩
abbrev S64x4096 : Shape := ⟨2, ![64, 4096]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S4x1x4096, .f32⟩
  | .hbm, ⟨4, _⟩ => ⟨S16384, .f32⟩
  | .local _ .vmem, ⟨0, _⟩ => ⟨S4096x512, .f32⟩
  | .local _ .vmem, ⟨1, _⟩ => ⟨S4096x512, .f32⟩
  | .local _ .vmem, ⟨2, _⟩ => ⟨S128x512, .f32⟩
  | .local _ .vmem, ⟨3, _⟩ => ⟨S64x128, .f32⟩
  | .local _ .vmem, ⟨4, _⟩ => ⟨S1x1x4096, .f32⟩
  | .local _ .vmem, ⟨5, _⟩ => ⟨S1x1x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x1x4096_S16384 : S4x1x4096.ShapeCasts S16384
  inb_S4096x512_S4096x512_0_0 : ∀ a, (![0, 0] : Fin 2 → Nat) a + S4096x512.size a ≤ S4096x512.size a
  h_S4096x512 : 0 < S4096x512.numel
  inb_S128x512_S128x512_0_0 : ∀ a, (![0, 0] : Fin 2 → Nat) a + S128x512.size a ≤ S128x512.size a
  h_S128x512 : 0 < S128x512.numel
  inb_S64x128_S64x128_0_0 : ∀ a, (![0, 0] : Fin 2 → Nat) a + S64x128.size a ≤ S64x128.size a
  h_S64x128 : 0 < S64x128.numel
  reduces_S128x4096_S4096 : S128x4096.Reduces [0] S4096
  shapeCasts_S4096_S1x4096 : S4096.ShapeCasts S1x4096
  reduces_S64x128_S64 : S64x128.Reduces [1] S64
  shapeCasts_S64_S64x1 : S64.ShapeCasts S64x1
  broadcasts_S64x1_S64x4096 : S64x1.Broadcasts S64x4096
  reduces_S64x4096_S4096 : S64x4096.Reduces [0] S4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  dot_S128x512_S4096x512_S128x4096_1_1_0_0_n_n_wf : DotDims.WF S128x512 S4096x512 S128x4096 [1] [1] [0] [0] [] []
  dot_S64x128_S128x4096_S64x4096_1_0_0_1_n_n_wf : DotDims.WF S64x128 S128x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S128x512 : Shape := ⟨2, ![128, 512]⟩
abbrev S64x128 : Shape := ⟨2, ![64, 128]⟩
abbrev S512x128 : Shape := ⟨2, ![512, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S128x64 : Shape := ⟨2, ![128, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S512x128, .f32⟩
  | .hbm, ⟨4, _⟩ => ⟨S16384x128, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S64x128, .f32⟩
  | .hbm, ⟨10, _⟩ => ⟨S_, .f32⟩
  | .hbm, ⟨11, _⟩ => ⟨S64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S128x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S128x512_S512x128_1_0 : S128x512.Transposes [1, 0] S512x128
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S64x128_S64_d1 : S64x128.ReducesTo [1] S64
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  transposes_S64x128_S128x64_1_0 : S64x128.Transposes [1, 0] S128x64
  bcast_S_S16384x64 : S_.BroadcastsInDim S16384x64 (![] : Fin 0 → Fin S16384x64.rank)
  reducesTo_S16384x64_S16384_d1 : S16384x64.ReducesTo [1] S16384
  dot_S16384x512_S512x128_S16384x128_1_0_0_1_n_n_wf : DotDims.WF S16384x512 S512x128 S16384x128 [1] [0] [0] [1] [] []
  dot_S16384x128_S128x64_S16384x64_1_0_0_1_n_n_wf : DotDims.WF S16384x128 S128x64 S16384x64 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Law.lean ====
/-
  Order and arithmetic on the extended reals behind the nearest-centroid distance.

  For one row, with squared norm `n`, centroid squared norms `c k` and inner products `a k`, the squared distance
  to centroid `k` is `n + c k - 2 · a k`.  Taking the square root of the clamped squared distance and then the
  minimum over `k` gives the same number as taking the minimum of `c k - 2 · a k` first, adding `n` once, clamping
  and taking one square root: `t ↦ √(max (t + n) z)` is monotone on the extended reals, a monotone map commutes
  with a minimum, and the two ways of writing the squared distance differ only by commuting and
  reassociating a sum.  No finiteness is used: addition on the extended reals is commutative, associative
  and monotone at the infinities too.
-/
import Idealize.ShloMosaic.PureOps.Ideal
import Mathlib.Data.Finset.Fold

namespace Cert.NearestCentroid

open Idealize.ShloMosaic

/-- The ideal square root (`⊥` below zero, `√r` on the nonnegative reals, `⊤` at `⊤`) is monotone. -/
theorem sqrt_mono : Monotone Ideal.sqrt := by
  intro x y hxy
  induction x using EReal.rec with
  | bot => exact bot_le
  | top =>
    have hy : y = ⊤ := top_le_iff.mp hxy
    subst hy
    exact le_rfl
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- A monotone map of a running minimum is the running minimum of the mapped terms, from the mapped start. -/
theorem map_fold_min {ι : Type*} (s : Finset ι) (g : EReal → EReal) (hg : Monotone g) (b : EReal) (f : ι → EReal) :
    g (s.fold min b f) = s.fold min (g b) (fun k => g (f k)) :=
  (Finset.fold_hom (op := min) (op' := min) (m := g) (fun _ _ => hg.map_min)).symm

/-- A running minimum over a set with a member below the start does not depend on the start. -/
theorem fold_min_start {ι : Type*} (s : Finset ι) (f : ι → EReal) (b : EReal) {k0 : ι} (hk : k0 ∈ s) (hb : f k0 ≤ b) :
    s.fold min b f = s.fold min ⊤ f := by
  apply le_antisymm
  · rw [Finset.le_fold_min]
    exact ⟨le_top, fun x hx => (Finset.fold_min_le _).2 (Or.inr ⟨x, hx, le_rfl⟩)⟩
  · rw [Finset.le_fold_min]
    exact ⟨((Finset.fold_min_le _).2 (Or.inr ⟨k0, hk, le_rfl⟩)).trans hb,
      fun x hx => (Finset.fold_min_le _).2 (Or.inr ⟨x, hx, le_rfl⟩)⟩

/-- The two ways of writing one squared distance. -/
theorem sqdist_assoc (n c t : EReal) : c - t + n = n + c - t := by
  rw [sub_eq_add_neg, sub_eq_add_neg, add_comm (c + -t) n, add_assoc]

/-- THE LAW: the square root of the clamped (minimum over the centroids plus the row's squared norm) is the
    minimum over the centroids of the square roots of the clamped squared distances — over any nonempty set
    of centroids, for any extended reals. -/
theorem sqrt_min_eq_min_sqrt {ι : Type*} (s : Finset ι) {k0 : ι} (hk : k0 ∈ s) (n two z : EReal) (c a : ι → EReal) :
    Ideal.sqrt (max (s.fold min ⊤ (fun k => c k - two * a k) + n) z)
      = s.fold min ⊤ (fun k => Ideal.sqrt (max (n + c k - two * a k) z)) := by
  have hg : Monotone fun t : EReal => Ideal.sqrt (max (t + n) z) := fun x y hxy =>
    sqrt_mono (max_le_max (add_le_add_left hxy n) le_rfl)
  have h1 := map_fold_min s _ hg ⊤ (fun k => c k - two * a k)
  have h2 := fold_min_start s (fun k => Ideal.sqrt (max (c k - two * a k + n) z))
    (Ideal.sqrt (max (⊤ + n) z)) hk (hg le_top)
  refine (h1.trans h2).trans ?_
  exact Finset.fold_congr fun k _ => by rw [sqdist_assoc]

end Cert.NearestCentroid
-- ==== Proof.Spec.lean ====
/-
  The nearest-centroid distance of one row, written the two ways the two programs compute it.

  A row `x` (512 entries) is projected on 128 components, `enc e = Σ i, x i · W e i`; its squared norm is
  `Σ e, enc e²`, a centroid's `Σ e, C k e²`, their inner product `Σ e, enc e · C k e`.
  `rowRef` is the reference's order: per centroid the squared distance `‖enc‖² + ‖C k‖² − 2·⟨enc, C k⟩`, clamped
  at zero, its square root, and the minimum of those over the 64 centroids.  `rowKer` is the kernel's order:
  the minimum over the centroids of `‖C k‖² − 2·⟨C k, enc⟩`, then `+ ‖enc‖²`, one clamp, one square root, with
  every product's factors in the other order.  They are one number (`rowKer_eq_rowRef`): products commute
  under the sums, and the rest is `sqrt_min_eq_min_sqrt`.
  The literals `2.0`, `0.0` and `+∞` stay the printed words; only `+∞ = ⊤` is evaluated.
-/
import Idealize.ShloMosaic.PureOps.Ideal
import proofs.«168638_g25297357373548_cont_9to1_2195_15_alg».proof.Proof.Law

noncomputable section

namespace Cert.NearestCentroid

open Idealize.ShloMosaic

/-- The word of `+∞` denotes the top extended real. -/
theorem ofBits_inf : Ideal.ofBits .f32 0x7F800000#32 = ⊤ := by simp [Ideal.ofBits, Ideal.ieee]

section Row

variable (W : Fin 128 → Fin 512 → EReal) (C : Fin 64 → Fin 128 → EReal) (x : Fin 512 → EReal)

/-- Component `e` of the projected row, the row's entry first in each product. -/
def enc (e : Fin 128) : EReal := ∑ i : Fin 512, x i * W e i

/-- The same component with the weight first in each product. -/
def encT (e : Fin 128) : EReal := ∑ i : Fin 512, W e i * x i

theorem encT_eq : encT W x = enc W x :=
  funext fun _ => Finset.sum_congr rfl fun _ _ => mul_comm _ _

/-- The reference's order: the minimum over the centroids of the distances. -/
def rowRef : EReal :=
  Finset.univ.fold min (Ideal.ofBits .f32 0x7F800000#32) fun k : Fin 64 =>
    Ideal.sqrt (max ((∑ e : Fin 128, enc W x e * enc W x e) + (∑ e : Fin 128, C k e * C k e)
      - Ideal.ofBits .f32 0x40000000#32 * (∑ e : Fin 128, enc W x e * C k e)) (Ideal.ofBits .f32 0x00000000#32))

/-- The kernel's order: one square root, of the clamped minimum plus the row's squared norm. -/
def rowKer : EReal :=
  Ideal.sqrt (max ((Finset.univ.fold min (Ideal.ofBits .f32 0x7F800000#32) fun k : Fin 64 =>
      (∑ e : Fin 128, C k e * C k e) - Ideal.ofBits .f32 0x40000000#32 * (∑ e : Fin 128, C k e * encT W x e))
    + (∑ e : Fin 128, encT W x e * encT W x e)) (Ideal.ofBits .f32 0x00000000#32))

/-- One number. -/
theorem rowKer_eq_rowRef : rowKer W C x = rowRef W C x := by
  unfold rowKer rowRef
  rw [encT_eq, ofBits_inf]
  have hc : ∀ k : Fin 64, (∑ e : Fin 128, C k e * enc W x e) = ∑ e : Fin 128, enc W x e * C k e :=
    fun k => Finset.sum_congr rfl fun _ _ => mul_comm _ _
  simp only [hc]
  exact sqrt_min_eq_min_sqrt Finset.univ (Finset.mem_univ (0 : Fin 64)) _ _ _
    (fun k => ∑ e : Fin 128, C k e * C k e) (fun k => ∑ e : Fin 128, enc W x e * C k e)

end Row

end Cert.NearestCentroid

end
-- ==== Proof.RefValue.lean ====
/-
  What the reference computes, row by row.

  Read one operation at a time, the reference's result at row `r` is `rowRef` of the weights, the centroids and
  row `r` of the input: the projection `x @ Wᵀ` at `(r, e)` is `Σ i, x[r, i] · W[e, i]`; the two squared norms are sums
  from the zero word; `x_enc @ Cᵀ` at `(r, k)` is `Σ e, x_enc[r, e] · C[k, e]`; the broadcasts read their operand at
  the row's or the centroid's coordinate; and the closing `min` over axis 1 is the running minimum from `+∞` over
  the 64 centroids.
-/
import proofs.«168638_g25297357373548_cont_9to1_2195_15_alg».proof.Proof.Gen.ReferenceIdeal.Read
import proofs.«168638_g25297357373548_cont_9to1_2195_15_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.NearestCentroid
open Idealize.ShloMosaic Idealize.ShloMosaic.ValueIdx

variable (x0 : (⟨S16384x512, .f32⟩ : BufTy).Contents (Elt Ideal)) (x1 : (⟨S128x512, .f32⟩ : BufTy).Contents (Elt Ideal))
  (x2 : (⟨S64x128, .f32⟩ : BufTy).Contents (Elt Ideal))

/-- The weights, the centroids and row `r` of the input as functions of their coordinates. -/
abbrev Wt : Fin 128 → Fin 512 → EReal := fun e i => x1 (ix2 e i)
abbrev Ct : Fin 64 → Fin 128 → EReal := fun k e => x2 (ix2 k e)
abbrev row (r : Fin 16384) : Fin 512 → EReal := fun i => x0 (ix2 r i)

/-- `x @ Wᵀ` at `(r, e)`. -/
theorem proj_at (r : Fin 16384) (e : Fin 128) :
    val_main_v1 (F := Ideal) x0 x1 (ix2 r e) = enc (Wt x1) (row x0 r) e := by
  rw [val_main_v1_apply]
  unfold enc
  refine Finset.sum_congr rfl fun i _ => ?_
  rw [val_main_v0_apply]
  have e1 : lidx_main_v1 (ix2 r e) i = ix2 r i :=
    funext fun a => Fin.ext (by match a with | ⟨0, _⟩ => rfl | ⟨1, _⟩ => rfl)
  have e2 : idx_main_v0 (ridx_main_v1 (ix2 r e) i) = ix2 e i :=
    funext fun a => Fin.ext (by match a with | ⟨0, _⟩ => rfl | ⟨1, _⟩ => rfl)
  rw [e1, e2]

/-- The row's squared norm. -/
theorem sqnorm_at (r : Fin 16384) :
    val_main_v3 (F := Ideal) x0 x1 (ix1 r) = ∑ e : Fin 128, enc (Wt x1) (row x0 r) e * enc (Wt x1) (row x0 r) e := by
  rw [val_main_v3_apply, val_main_cst_apply]
  have e1 : ∀ e : Fin 128, idx_main_v3 (ix1 r) e = ix2 r e := fun e =>
    funext fun a => Fin.ext (by match a with | ⟨0, _⟩ => rfl | ⟨1, _⟩ => rfl)
  simp only [val_main_v2_apply, e1, proj_at, Ideal.mulf_def, Ideal.ofBits_def, Ideal.ofBits_zero_f32, zero_add]

/-- A centroid's squared norm. -/
theorem csq_at (k : Fin 64) :
    val_main_v6 (F := Ideal) x2 (ix1 k) = ∑ e : Fin 128, Ct x2 k e * Ct x2 k e := by
  rw [val_main_v6_apply, val_main_cst_0_apply]
  have e1 : ∀ e : Fin 128, idx_main_v6 (ix1 k) e = ix2 k e := fun e =>
    funext fun a => Fin.ext (by match a with | ⟨0, _⟩ => rfl | ⟨1, _⟩ => rfl)
  simp only [val_main_v5_apply, e1, Ideal.mulf_def, Ideal.ofBits_def, Ideal.ofBits_zero_f32, zero_add]

/-- `x_enc @ Cᵀ` at `(r, k)`. -/
theorem inner_at (r : Fin 16384) (k : Fin 64) :
    val_main_v12 (F := Ideal) x0 x1 x2 (ix2 r k) = ∑ e : Fin 128, enc (Wt x1) (row x0 r) e * Ct x2 k e := by
  rw [val_main_v12_apply]
  refine Finset.sum_congr rfl fun e _ => ?_
  rw [val_main_v11_apply]
  have e1 : lidx_main_v12 (ix2 r k) e = ix2 r e :=
    funext fun a => Fin.ext (by match a with | ⟨0, _⟩ => rfl | ⟨1, _⟩ => rfl)
  have e2 : idx_main_v11 (ridx_main_v12 (ix2 r k) e) = ix2 k e :=
    funext fun a => Fin.ext (by match a with | ⟨0, _⟩ => rfl | ⟨1, _⟩ => rfl)
  rw [e1, e2, proj_at]

/-- The distance from row `r` to centroid `k`. -/
theorem dist_at (r : Fin 16384) (k : Fin 64) :
    val_main_v18 (F := Ideal) x0 x1 x2 (ix2 r k)
      = Ideal.sqrt (max ((∑ e : Fin 128, enc (Wt x1) (row x0 r) e * enc (Wt x1) (row x0 r) e)
          + (∑ e : Fin 128, Ct x2 k e * Ct x2 k e)
          - Ideal.ofBits .f32 0x40000000#32 * (∑ e : Fin 128, enc (Wt x1) (row x0 r) e * Ct x2 k e))
          (Ideal.ofBits .f32 0x00000000#32)) := by
  rw [val_main_v18_apply, val_main_v17_apply, val_main_v15_apply, val_main_v10_apply, val_main_v8_apply,
    val_main_v4_apply, val_main_v9_apply, val_main_v7_apply, val_main_v14_apply, val_main_v13_apply,
    val_main_cst_1_apply, val_main_v16_apply, val_main_cst_2_apply]
  have e1 : idx_main_v4 (idx_main_v8 (ix2 r k)) = ix1 r :=
    funext fun a => Fin.ext (by match a with | ⟨0, _⟩ => rfl)
  have e2 : idx_main_v7 (idx_main_v9 (ix2 r k)) = ix1 k :=
    funext fun a => Fin.ext (by match a with | ⟨0, _⟩ => rfl)
  rw [e1, e2, sqnorm_at, csq_at, inner_at]
  rfl

/-- The lift of a row index over the reduced axis is the pair. -/
theorem lift_row (h : S16384x64.Reduces [1] S16384) (r : Fin 16384) (k : Fin 64) : h.lift (ix1 r) k = ix2 r k :=
  funext fun a => Fin.ext (by match a with | ⟨0, _⟩ => rfl | ⟨1, _⟩ => rfl)

/-- THE REFERENCE at row `r`. -/
theorem result_at (r : Fin 16384) :
    val_main_v19 (F := Ideal) x0 x1 x2 (ix1 r) = rowRef (Wt x1) (Ct x2) (row x0 r) := by
  have h : S16384x64.Reduces [1] S16384 := by decide
  unfold val_main_v19
  rw [Host.reduce_eq_fold_single FloatOps.minimumf _ _ reducesTo_S16384x64_S16384_d1 h h_S_ (ix1 r)]
  unfold rowRef
  rw [val_main_cst_3_apply]
  refine Finset.fold_congr fun (k : Fin 64) _ => ?_
  show val_main_v18 (F := Ideal) x0 x1 x2 (h.lift (ix1 r) k) = _
  rw [lift_row h r k, dist_at]

end Cert.ReferenceIdeal.RefValue

end
-- ==== Proof.BodyValue.lean ====
/-
  What the kernel body stores at one point, column by column.

  The body holds a block of 4096 input rows, the 128 × 512 weights and the 64 × 128 centroids, and works
  transposed: `xeT = W · xbᵀ` (component `e` of row `r` at `(e, r)`), the rows' squared norms as column sums of
  `xeT²`, the centroids' squared norms as row sums of `c²`, `xcT = c · xeT`, then per column the minimum over the
  centroids of `‖c k‖² − 2·xcT[k, r]`, plus the row's squared norm, clamped at zero, square-rooted, stored as a
  `1 × 1 × 4096` block.  Read at column `r` that is `rowKer` of the weights, the centroids and row `r` of the block.
  The payload is cut in four named stages (the projection, the squared norms, the per-centroid part, the
  closing column minimum), each read at an index by the contraction, reduction and layout laws.
-/
import proofs.«168638_g25297357373548_cont_9to1_2195_15_alg».proof.Proof.Gen.KernelIdeal.Skeleton
import proofs.«168638_g25297357373548_cont_9to1_2195_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Cert.NearestCentroid
open Idealize.ShloMosaic Idealize.ShloMosaic.ValueIdx

/-! ## Two layout operations at an index: a column vector made from a vector, and spread over the columns -/

/-- An `[a]` vector cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products at an index -/

theorem lhsW_0 (i : S128x4096.Idx) (q : dot_S128x512_S4096x512_S128x4096_1_1_0_0_n_n.contr.Idx) :
    (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem lhsW_1 (i : S128x4096.Idx) (q : dot_S128x512_S4096x512_S128x4096_1_1_0_0_n_n.contr.Idx) :
    (dot_S128x512_S4096x512_S128x4096_1_1_0_0_n_n.lhsIdx i q 1).val = (q ⟨0, by decide⟩).val :=
  dot_S128x512_S4096x512_S128x4096_1_1_0_0_n_n.lhsIdx_val_of_single rfl i q
theorem rhsX_0 (i : S128x4096.Idx) (q : dot_S128x512_S4096x512_S128x4096_1_1_0_0_n_n.contr.Idx) :
    (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem rhsX_1 (i : S128x4096.Idx) (q : dot_S128x512_S4096x512_S128x4096_1_1_0_0_n_n.contr.Idx) :
    (dot_S128x512_S4096x512_S128x4096_1_1_0_0_n_n.rhsIdx i q 1).val = (q ⟨0, by decide⟩).val :=
  dot_S128x512_S4096x512_S128x4096_1_1_0_0_n_n.rhsIdx_val_of_single rfl i q

/-- `W · xbᵀ` at `(e, r)`: the sum over the 512 input features of `W[e, i] · xb[r, i]`. -/
theorem proj_at (x0 : FVec Ideal S4096x512 .f32) (x1 : FVec Ideal S128x512 .f32) (e : Fin 128) (r : Fin 4096) :
    matmul dot_S128x512_S4096x512_S128x4096_1_1_0_0_n_n none x1 x0 (constant S128x4096 .f32 0x00000000#32) (ix2 e r)
      = encT (fun e i => x1 (ix2 e i)) (fun i => x0 (ix2 r i)) e := by
  simp only [matmul]
  rw [Ideal.matmul_constant_zero_apply, ← Equiv.sum_comp (contrEquiv1 dot_S128x512_S4096x512_S128x4096_1_1_0_0_n_n 512 rfl rfl).symm]
  unfold encT
  refine Finset.sum_congr rfl fun k _ => ?_
  have hk := contrEquiv1_symm_val dot_S128x512_S4096x512_S128x4096_1_1_0_0_n_n 512 rfl rfl k
  have el : dot_S128x512_S4096x512_S128x4096_1_1_0_0_n_n.lhsIdx (ix2 e r) ((contrEquiv1 dot_S128x512_S4096x512_S128x4096_1_1_0_0_n_n 512 rfl rfl).symm k) = ix2 e k := funext fun a => Fin.ext (by
    match a with
    | ⟨0, _⟩ => exact lhsW_0 _ _
    | ⟨1, _⟩ => exact (lhsW_1 _ _).trans hk)
  have er : dot_S128x512_S4096x512_S128x4096_1_1_0_0_n_n.rhsIdx (ix2 e r) ((contrEquiv1 dot_S128x512_S4096x512_S128x4096_1_1_0_0_n_n 512 rfl rfl).symm k) = ix2 r k := funext fun a => Fin.ext (by
    match a with
    | ⟨0, _⟩ => exact rhsX_0 _ _
    | ⟨1, _⟩ => exact (rhsX_1 _ _).trans hk)
  rw [el, er]

theorem lhsC_0 (i : S64x4096.Idx) (q : dot_S64x128_S128x4096_S64x4096_1_0_0_1_n_n.contr.Idx) :
    (dot_S64x128_S128x4096_S64x4096_1_0_0_1_n_n.lhsIdx i q 0).val = (i 0).val := by
  unfold DotDims.lhsIdx
  rw [dif_neg (show ¬(0 : Fin S64x128.rank) ∈ dot_S64x128_S128x4096_S64x4096_1_0_0_1_n_n.lhsBatch by decide), dif_pos (show (0 : Fin S64x128.rank) ∈ dot_S64x128_S128x4096_S64x4096_1_0_0_1_n_n.lhsNonContracting by decide)]
  rfl
theorem lhsC_1 (i : S64x4096.Idx) (q : dot_S64x128_S128x4096_S64x4096_1_0_0_1_n_n.contr.Idx) :
    (dot_S64x128_S128x4096_S64x4096_1_0_0_1_n_n.lhsIdx i q 1).val = (q ⟨0, by decide⟩).val :=
  dot_S64x128_S128x4096_S64x4096_1_0_0_1_n_n.lhsIdx_val_of_single rfl i q
theorem rhsE_0 (i : S64x4096.Idx) (q : dot_S64x128_S128x4096_S64x4096_1_0_0_1_n_n.contr.Idx) :
    (dot_S64x128_S128x4096_S64x4096_1_0_0_1_n_n.rhsIdx i q 0).val = (q ⟨0, by decide⟩).val :=
  dot_S64x128_S128x4096_S64x4096_1_0_0_1_n_n.rhsIdx_val_of_single rfl i q
theorem rhsE_1 (i : S64x4096.Idx) (q : dot_S64x128_S128x4096_S64x4096_1_0_0_1_n_n.contr.Idx) :
    (dot_S64x128_S128x4096_S64x4096_1_0_0_1_n_n.rhsIdx i q 1).val = (i 1).val := by
  unfold DotDims.rhsIdx
  rw [dif_neg (show ¬(1 : Fin S128x4096.rank) ∈ dot_S64x128_S128x4096_S64x4096_1_0_0_1_n_n.rhsBatch by decide), dif_pos (show (1 : Fin S128x4096.rank) ∈ dot_S64x128_S128x4096_S64x4096_1_0_0_1_n_n.rhsNonContracting by decide)]
  rfl

/-- `c · xeT` at `(k, r)`: the sum over the 128 components of `c[k, e] · xeT[e, r]`. -/
theorem inner_at (x2 : FVec Ideal S64x128 .f32) (v : FVec Ideal S128x4096 .f32) (k : Fin 64) (r : Fin 4096) :
    matmul dot_S64x128_S128x4096_S64x4096_1_0_0_1_n_n none x2 v (constant S64x4096 .f32 0x00000000#32) (ix2 k r)
      = ∑ e : Fin 128, x2 (ix2 k e) * v (ix2 e r) := by
  simp only [matmul]
  rw [Ideal.matmul_constant_zero_apply, ← Equiv.sum_comp (contrEquiv1 dot_S64x128_S128x4096_S64x4096_1_0_0_1_n_n 128 rfl rfl).symm]
  refine Finset.sum_congr rfl fun e _ => ?_
  have he := contrEquiv1_symm_val dot_S64x128_S128x4096_S64x4096_1_0_0_1_n_n 128 rfl rfl e
  have el : dot_S64x128_S128x4096_S64x4096_1_0_0_1_n_n.lhsIdx (ix2 k r) ((contrEquiv1 dot_S64x128_S128x4096_S64x4096_1_0_0_1_n_n 128 rfl rfl).symm e) = ix2 k e := funext fun a => Fin.ext (by
    match a with
    | ⟨0, _⟩ => exact lhsC_0 _ _
    | ⟨1, _⟩ => exact (lhsC_1 _ _).trans he)
  have er : dot_S64x128_S128x4096_S64x4096_1_0_0_1_n_n.rhsIdx (ix2 k r) ((contrEquiv1 dot_S64x128_S128x4096_S64x4096_1_0_0_1_n_n 128 rfl rfl).symm e) = ix2 e r := funext fun a => Fin.ext (by
    match a with
    | ⟨0, _⟩ => exact (rhsE_0 _ _).trans he
    | ⟨1, _⟩ => exact rhsE_1 _ _)
  rw [el, er]

/-! ## The three reductions at an index -/

/-- A column sum of a `128 × 4096` array. -/
theorem colsum_at (v : FVec Ideal S128x4096 .f32) (h : S128x4096.Reduces [0] S4096) (hφ : FKind.Formats .f32)
    (hacc : (0x00000000#32 : BitVec 32) = 0x00000000#32) (r : Fin 4096) :
    multiReduction .add [0] S4096 v 0x00000000#32 h hφ hacc (ix1 r) = ∑ e : Fin 128, v (ix2 e r) := by
  refine (Ideal.multiReduction_add_single v 0x00000000#32 h hφ hacc (ix1 r)).trans ?_
  refine Finset.sum_congr rfl fun (e : Fin 128) _ => congrArg v ?_
  exact funext fun a => Fin.ext (by match a with | ⟨0, _⟩ => rfl | ⟨1, _⟩ => rfl)

/-- A row sum of a `64 × 128` array. -/
theorem rowsum_at (v : FVec Ideal S64x128 .f32) (h : S64x128.Reduces [1] S64) (hφ : FKind.Formats .f32)
    (hacc : (0x00000000#32 : BitVec 32) = 0x00000000#32) (k : Fin 64) :
    multiReduction .add [1] S64 v 0x00000000#32 h hφ hacc (ix1 k) = ∑ e : Fin 128, v (ix2 k e) := by
  refine (Ideal.multiReduction_add_single v 0x00000000#32 h hφ hacc (ix1 k)).trans ?_
  refine Finset.sum_congr rfl fun (e : Fin 128) _ => congrArg v ?_
  exact funext fun a => Fin.ext (by match a with | ⟨0, _⟩ => rfl | ⟨1, _⟩ => rfl)

/-- A column minimum of a `64 × 4096` array: the running minimum from the start word over the 64 rows. -/
theorem colmin_at (v : FVec Ideal S64x4096 .f32) (h : S64x4096.Reduces [0] S4096) (hφ : FKind.Formats .f32)
    (hacc : (0x7F800000#32 : BitVec 32) = 0x7F800000#32) (r : Fin 4096) :
    multiReduction .minimumf [0] S4096 v 0x7F800000#32 h hφ hacc (ix1 r)
      = Finset.univ.fold min (Ideal.ofBits .f32 0x7F800000#32) fun k : Fin 64 => v (ix2 k r) := by
  refine (multiReduction_minimumf_eq_fold v 0x7F800000#32 h hφ hacc (ix1 r)).trans ?_
  refine (h.fold_filter_drop_single FloatOps.minimumf (FloatOps.ofBits .f32 0x7F800000#32) v (ix1 r)).trans ?_
  refine Finset.fold_congr fun (k : Fin 64) _ => congrArg v ?_
  exact funext fun a => Fin.ext (by match a with | ⟨0, _⟩ => rfl | ⟨1, _⟩ => rfl)

/-! ## The payload in four stages -/

/-- `xeT`: the block's rows projected, transposed. -/
def projT (x0 : FVec Ideal S4096x512 .f32) (x1 : FVec Ideal S128x512 .f32) : FVec Ideal S128x4096 .f32 :=
  matmul dot_S128x512_S4096x512_S128x4096_1_1_0_0_n_n none x1 x0 (constant S128x4096 .f32 0x00000000#32)

/-- The rows' squared norms, as a `1 × 4096` row. -/
def sqn (v3 : FVec Ideal S128x4096 .f32) : FVec Ideal S1x4096 .f32 :=
  shapeCast S1x4096 (multiReduction .add [0] S4096 (mulf v3 v3) 0x00000000#32 reduces_S128x4096_S4096 (.inl rfl) rfl) shapeCasts_S4096_S1x4096

/-- Per centroid and row: the centroid's squared norm less twice the inner product. -/
def part (x2 : FVec Ideal S64x128 .f32) (v3 : FVec Ideal S128x4096 .f32) : FVec Ideal S64x4096 .f32 :=
  subf (broadcastTo S64x4096 (shapeCast S64x1 (multiReduction .add [1] S64 (mulf x2 x2) 0x00000000#32 reduces_S64x128_S64 (.inl rfl) rfl) shapeCasts_S64_S64x1) broadcasts_S64x1_S64x4096)
    (mulf (broadcast S64x4096 (Scalar.ofBits (F := Ideal) .f32 0x40000000#32)) (matmul dot_S64x128_S128x4096_S64x4096_1_0_0_1_n_n none x2 v3 (constant S64x4096 .f32 0x00000000#32)))

/-- The closing stage: column minimum, plus the squared norm, clamp, square root, as a `1 × 1 × 4096` block. -/
def close (p : FVec Ideal S64x4096 .f32) (n : FVec Ideal S1x4096 .f32) : FVec Ideal S1x1x4096 .f32 :=
  shapeCast S1x1x4096 (sqrt (maximumf (addf (shapeCast S1x4096 (multiReduction .minimumf [0] S4096 p 0x7F800000#32 reduces_S64x4096_S4096 (.inl rfl) rfl) shapeCasts_S4096_S1x4096) n)
    (broadcast S1x4096 (Scalar.ofBits (F := Ideal) .f32 0x00000000#32)))) shapeCasts_S1x4096_S1x1x4096

/-- The printed payload is the four stages composed. -/
theorem pay_eq (x0 : Vec Ideal S4096x512 .f32) (x1 : Vec Ideal S128x512 .f32) (x2 : Vec Ideal S64x128 .f32) :
    k0_pay1 (F := Ideal) x0 x1 x2 = close (part x2 (projT x0 x1)) (sqn (projT x0 x1)) := rfl

theorem sqn_at (v3 : FVec Ideal S128x4096 .f32) (r : Fin 4096) :
    sqn v3 (ix2 (0 : Fin 1) r) = ∑ e : Fin 128, v3 (ix2 e r) * v3 (ix2 e r) := by
  unfold sqn
  rw [shapeCast_a_1a_apply, colsum_at]
  rfl

theorem part_at (x2 : FVec Ideal S64x128 .f32) (v3 : FVec Ideal S128x4096 .f32) (k : Fin 64) (r : Fin 4096) :
    part x2 v3 (ix2 k r)
      = (∑ e : Fin 128, x2 (ix2 k e) * x2 (ix2 k e))
        - Ideal.ofBits .f32 0x40000000#32 * ∑ e : Fin 128, x2 (ix2 k e) * v3 (ix2 e r) := by
  unfold part
  rw [subf_apply, mulf_apply, broadcastTo_a1_ab_apply, shapeCast_a_a1_apply, rowsum_at, inner_at]
  rfl

theorem close_at (p : FVec Ideal S64x4096 .f32) (n : FVec Ideal S1x4096 .f32) (r : Fin 4096) :
    close p n (ix3 (0 : Fin 1) (0 : Fin 1) r)
      = Ideal.sqrt (max ((Finset.univ.fold min (Ideal.ofBits .f32 0x7F800000#32) fun k : Fin 64 => p (ix2 k r))
          + n (ix2 (0 : Fin 1) r)) (Ideal.ofBits .f32 0x00000000#32)) := by
  unfold close
  rw [shapeCast_ab_1ab_apply]
  simp only [Idealize.ShloMosaic.sqrt, maximumf_apply, addf_apply, broadcast_apply]
  rw [shapeCast_a_1a_apply, colmin_at]
  rfl

theorem projT_at (x0 : FVec Ideal S4096x512 .f32) (x1 : FVec Ideal S128x512 .f32) (e : Fin 128) (r : Fin 4096) :
    projT x0 x1 (ix2 e r) = encT (fun e i => x1 (ix2 e i)) (fun i => x0 (ix2 r i)) e :=
  proj_at x0 x1 e r

/-- THE BODY at column `r` of its block: `rowKer` of the weights, the centroids and row `r` of the input block. -/
theorem pay_at (x0 : Vec Ideal S4096x512 .f32) (x1 : Vec Ideal S128x512 .f32) (x2 : Vec Ideal S64x128 .f32) (r : Fin 4096) :
    k0_pay1 (F := Ideal) x0 x1 x2 (ix3 (0 : Fin 1) (0 : Fin 1) r)
      = rowKer (fun e i => x1 (ix2 e i)) (fun k e => x2 (ix2 k e)) (fun i => x0 (ix2 r i)) := by
  rw [pay_eq, close_at, sqn_at]
  unfold rowKer
  simp only [part_at, projT_at]

end Cert.KernelIdeal.BodyValue

end
-- ==== Proof.Result.lean ====
/-
  The result array: entry `j` is the distance from row `j` of the input to its nearest centroid, in the
  reference's order of operations (`rowRef`), as one function of the three argument arrays.
-/
import proofs.«168638_g25297357373548_cont_9to1_2195_15_alg».proof.Proof.Spec
import Idealize.ShloMosaic.Lib.ValueIdx

noncomputable section

namespace Cert.NearestCentroid

open Idealize.ShloMosaic Idealize.ShloMosaic.ValueIdx

/-- Row `t · 4096 + r` of the input: row `r` of the `t`-th block of 4096 rows. -/
def rowIx (t : Fin 4) (r : Fin 4096) : Fin 16384 := ⟨t.val * 4096 + r.val, by omega⟩

/-- The distances, row by row. -/
def result (X : (⟨2, ![16384, 512]⟩ : Shape).Idx → EReal) (W : (⟨2, ![128, 512]⟩ : Shape).Idx → EReal)
    (C : (⟨2, ![64, 128]⟩ : Shape).Idx → EReal) : (⟨1, ![16384]⟩ : Shape).Idx → EReal :=
  fun j => rowRef (fun e i => W (ix2 e i)) (fun k e => C (ix2 k e)) (fun i => X (ix2 (n0 := 16384) (j 0) i))

/-- The same distances laid out as the kernel's grid writes them: 4 blocks of one row of 4096 entries, entry
    `(t, 0, r)` the distance of input row `t · 4096 + r`, in the kernel's order of operations (`rowKer`). -/
def blocks (X : (⟨2, ![16384, 512]⟩ : Shape).Idx → EReal) (W : (⟨2, ![128, 512]⟩ : Shape).Idx → EReal)
    (C : (⟨2, ![64, 128]⟩ : Shape).Idx → EReal) : (⟨3, ![4, 1, 4096]⟩ : Shape).Idx → EReal :=
  fun i => rowKer (fun e f => W (ix2 e f)) (fun k e => C (ix2 k e)) (fun f => X (ix2 (rowIx (i 0) (i 2)) f))

theorem blocks_apply (X : (⟨2, ![16384, 512]⟩ : Shape).Idx → EReal) (W : (⟨2, ![128, 512]⟩ : Shape).Idx → EReal)
    (C : (⟨2, ![64, 128]⟩ : Shape).Idx → EReal) (t : Fin 4) (u : Fin 1) (r : Fin 4096) :
    blocks X W C (ix3 t u r)
      = rowKer (fun e f => W (ix2 e f)) (fun k e => C (ix2 k e)) (fun f => X (ix2 (rowIx t r) f)) := rfl

theorem result_apply (X : (⟨2, ![16384, 512]⟩ : Shape).Idx → EReal) (W : (⟨2, ![128, 512]⟩ : Shape).Idx → EReal)
    (C : (⟨2, ![64, 128]⟩ : Shape).Idx → EReal) (r : Fin 16384) :
    result X W C (ix1 r) = rowRef (fun e i => W (ix2 e i)) (fun k e => C (ix2 k e)) (fun i => X (ix2 r i)) := rfl

end Cert.NearestCentroid

end
-- ==== Proof.RegionValue.lean ====
/-
  What the launch leaves in the kernel's output array.

  Grid point `t` holds input rows `t · 4096 … t · 4096 + 4095` (window 0's block `(t, 0)`), the whole weights and
  centroids (windows 1 and 2, block `(0, 0)`), and writes back block `(t, 0, 0)` of the `4 × 1 × 4096` output.  What
  it writes is that block of ONE function of the argument arrays (`blocks`): the body's column `r` is `rowKer` of
  row `r` of its input block, which is row `t · 4096 + r` of the input.  The four blocks tile the output, so after the
  launch the output array is `blocks` of the arguments.
-/
import proofs.«168638_g25297357373548_cont_9to1_2195_15_alg».proof.Proof.Gen.KernelIdeal.Frame
import proofs.«168638_g25297357373548_cont_9to1_2195_15_alg».proof.Proof.BodyValue
import proofs.«168638_g25297357373548_cont_9to1_2195_15_alg».proof.Proof.Result
import Idealize.ShloMosaic.Lib.Pipeline.Value

set_option maxRecDepth 16384

noncomputable section

namespace Cert.KernelIdeal.RegionValue

open Cert.KernelIdeal Cert.KernelIdeal.Gen Cert.KernelIdeal.BodyValue Cert.NearestCentroid
open Idealize.ShloMosaic Idealize.ShloMosaic.TcCoe Idealize.ShloMosaic.ValueIdx Idealize.SL.Sem

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input block moves with the output block along the rows, every other
    block coordinate is zero, and the output's block index stays below 4. -/
theorem idx_facts : ∀ t : Fin cfg0.N, win0_0.index t (0 : Fin 2) = win0_3.index t (0 : Fin 3)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) = 0 ∧ win0_3.index t (2 : Fin 3) = 0 :=
  (by decide +kernel : ∀ t : Fin grid0.N, _)

/-- Every output block is some point's. -/
theorem idx_onto : ∀ q : Fin 4, ∃ t : Fin cfg0.N, win0_3.index t = ![q.val, 0, 0] :=
  (by decide +kernel : ∀ q : Fin 4, ∃ t : Fin grid0.N, win0_3.index t = ![q.val, 0, 0])

/-- WHAT POINT `t` WRITES BACK is block `t` of `blocks` of the argument arrays as the launch finds them. -/
theorem flushed_eq (c : Dev nD) (t : Fin cfg0.N) :
    (dats m 0 c).flushed 3 t
      = ((cfg0.win 3).blk t).view.read (Elt Ideal) (blocks (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S4096x512) hz2, View.ld_unit_zero (S := S128x512) hz2, View.ld_unit_zero (S := S64x128) hz2]
  obtain ⟨e0, e1, e2, e3, e4, e5, e6, e7, e8⟩ := idx_facts t
  funext j
  obtain ⟨a, b, r, rfl⟩ : ∃ (a : Fin 1) (b : Fin 1) (r : Fin 4096), j = ix3 a b r := ⟨j 0, j 1, j 2, eq_ix3 j⟩
  obtain rfl : a = 0 := Subsingleton.elim _ _
  obtain rfl : b = 0 := Subsingleton.elim _ _
  -- the input blocks are the arrays read where the output block says
  have hx : ∀ (r : Fin 4096) (f : Fin 512),
      iblk m c 0 t (ix2 r f) = V m c main_arg0 (ix2 (rowIx ⟨win0_3.index t (0 : Fin 3), by omega⟩ r) f) := fun r f => by
    show V m c main_arg0 (((cfg0.win 0).blk t).view.emb (ix2 r f)) = _
    refine congrArg (V m c main_arg0) (funext fun a => Fin.ext ?_)
    match a with
    | ⟨0, _⟩ => show win0_0.index t (0 : Fin 2) * 4096 + 1 * r.val = win0_3.index t (0 : Fin 3) * 4096 + r.val; omega
    | ⟨1, _⟩ => show win0_0.index t (1 : Fin 2) * 512 + 1 * f.val = f.val; omega
  have hw : ∀ (e : Fin 128) (f : Fin 512), iblk m c 1 t (ix2 e f) = V m c main_arg1 (ix2 e f) := fun e f => by
    show V m c main_arg1 (((cfg0.win 1).blk t).view.emb (ix2 e f)) = _
    refine congrArg (V m c main_arg1) (funext fun a => Fin.ext ?_)
    match a with
    | ⟨0, _⟩ => show win0_1.index t (0 : Fin 2) * 128 + 1 * e.val = e.val; omega
    | ⟨1, _⟩ => show win0_1.index t (1 : Fin 2) * 512 + 1 * f.val = f.val; omega
  have hc : ∀ (k : Fin 64) (e : Fin 128), iblk m c 2 t (ix2 k e) = V m c main_arg2 (ix2 k e) := fun k e => by
    show V m c main_arg2 (((cfg0.win 2).blk t).view.emb (ix2 k e)) = _
    refine congrArg (V m c main_arg2) (funext fun a => Fin.ext ?_)
    match a with
    | ⟨0, _⟩ => show win0_2.index t (0 : Fin 2) * 64 + 1 * k.val = k.val; omega
    | ⟨1, _⟩ => show win0_2.index t (1 : Fin 2) * 128 + 1 * e.val = e.val; omega
  -- the output block's entry sits at (t, 0, r)
  have ho : ((cfg0.win 3).blk t).view.emb (ix3 (0 : Fin 1) (0 : Fin 1) r)
      = ix3 (⟨win0_3.index t (0 : Fin 3), by omega⟩ : Fin 4) (0 : Fin 1) r := by
    funext a; apply Fin.ext
    match a with
    | ⟨0, _⟩ => show win0_3.index t (0 : Fin 3) * 1 + 1 * 0 = win0_3.index t (0 : Fin 3); omega
    | ⟨1, _⟩ => show win0_3.index t (1 : Fin 3) * 1 + 1 * 0 = 0; omega
    | ⟨2, _⟩ => show win0_3.index t (2 : Fin 3) * 4096 + 1 * r.val = r.val; omega
  show k0_pay1 (F := Ideal) (iblk m c 0 t) (iblk m c 1 t) (iblk m c 2 t) (ix3 (0 : Fin 1) (0 : Fin 1) r)
    = blocks (V m c main_arg0) (V m c main_arg1) (V m c main_arg2) (((cfg0.win 3).blk t).view.emb (ix3 (0 : Fin 1) (0 : Fin 1) r))
  rw [ho, blocks_apply]
  refine (pay_at (iblk m c 0 t) (iblk m c 1 t) (iblk m c 2 t) r).trans ?_
  simp only [hx, hw, hc]

/-- An index of the output array is in point `t`'s block iff each coordinate is in the block's range on its axis. -/
theorem mem_blk (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_call0_v0).slice (win0_3.rect t)).set ↔ _
  rw [View.set_slice_whole, Rect.mem_set_unit]
  exact Iff.rfl

/-- The four blocks tile the output array. -/
theorem covered (i : S4x1x4096.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 4096 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- THE OUTPUT ARRAY after the launch. -/
theorem final (c : Dev nD) :
    (dats m 0 c).arrAt 3 cfg0.N = blocks (V m c main_arg0) (V m c main_arg1) (V m c main_arg2) :=
  (dats m 0 c).arrAt_eq_of_cover 3 _ (fun t _ => flushed_eq m c t) covered

end Cert.KernelIdeal.RegionValue

end
-- ==== Proof.KernelRun.lean ====
/-
  The kernel program's run, read: every weakly fair execution ends with the result buffer holding `result` of the
  arguments and the arguments unchanged.

  The launch leaves `blocks` of the arguments in the `4 × 1 × 4096` output array; the one host operation after it
  reshapes that array to 16384 entries, so entry `j` is the block entry `(j / 4096, 0, j % 4096)` (the same row-major
  position), the kernel's distance for input row `j`; and the kernel's order of operations gives the reference's
  number (`rowKer_eq_rowRef`).
-/
import proofs.«168638_g25297357373548_cont_9to1_2195_15_alg».proof.Proof.RegionValue
import Idealize.ShloMosaic.Lib.StableHlo.Run
import Idealize.ShloMosaic.Lib.Pipeline.FrameSuffix

set_option maxRecDepth 16384

noncomputable section

namespace Cert.KernelIdeal.RunValue

open Cert.KernelIdeal Cert.KernelIdeal.Gen Cert.KernelIdeal.RegionValue Cert.NearestCentroid
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer is none of the launch's arrays. -/
theorem v0_rest : main_v0 ∈ Pipeline.restRefs sig spec0 :=
  Pipeline.mem_restRefs_of main_v0 rfl (by decide)

/-- Entry `r` of the reshaped array is the block entry at the same row-major position. -/
theorem reshape_at (x : S4x1x4096.Idx → EReal) (h : S4x1x4096.ShapeCasts S16384) (r : Fin 16384) :
    shapeCast S16384 x h (ix1 r)
      = x (ix3 (⟨r.val / 4096, by omega⟩ : Fin 4) (0 : Fin 1) (⟨r.val % 4096, by omega⟩ : Fin 4096)) :=
  shapeCast_apply x h _ _ (by
    rw [Shape.rowMajor_val_three, Shape.rowMajor_val_one]
    show (r.val / 4096 * 1 + 0) * 4096 + r.val % 4096 = r.val
    omega)

/-- What the host operation after the launch leaves in the result buffer. -/
theorem tail_eq (c : Dev nD) :
    Pipeline.afterTail₀ cfgs (dats m) 0 (V0 m) [hostOps1] c main_v0
      = result (V m c main_arg0) (V m c main_arg1) (V m c main_arg2) := by
  have hA : Pipeline.withArrays spec0 c (V0 m c) (fun w => (dats m 0 c).arrAt w cfg0.N) (Proc.devRef .tc main_call0_v0)
      = blocks (V m c main_arg0) (V m c main_arg1) (V m c main_arg2) :=
    (Pipeline.withArrays_arr spec0 launch0.win.arr_inj c _ _ 3).trans (final m c)
  unfold Pipeline.afterTail₀
  show StableHlo.after hostOps1 _ (Proc.devRef .tc main_v0) = _
  after_results
  funext j
  obtain ⟨r, rfl⟩ : ∃ r : Fin 16384, j = ix1 r := ⟨j 0, eq_ix1 j⟩
  refine (reshape_at _ shapeCasts_S4x1x4096_S16384 r).trans ?_
  refine (congrFun hA _).trans ?_
  rw [blocks_apply, result_apply, rowKer_eq_rowRef]
  have hr : rowIx (⟨r.val / 4096, by omega⟩ : Fin 4) (⟨r.val % 4096, by omega⟩ : Fin 4096) = r :=
    Fin.ext (by show r.val / 4096 * 4096 + r.val % 4096 = r.val; omega)
  rw [hr]

/-- THE RUN. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v0 v0_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.lean ====
/-
  Distance to the nearest centroid: a fused kernel against the plain reference, equal over the extended reals.

  Both programs project each of the 16384 input rows on 128 components (`x @ Wᵀ`), and return for each row the
  Euclidean distance to the nearest of 64 centroids.  The reference forms, per row and centroid, the squared
  distance `‖x_enc‖² + ‖c k‖² − 2·⟨x_enc, c k⟩`, clamps it at zero, takes its square root, and then the minimum over
  the centroids.  The kernel works on blocks of 4096 rows, transposed; it takes the minimum over the centroids of
  `‖c k‖² − 2·⟨c k, x_enc⟩` first, adds `‖x_enc‖²` once, clamps, and takes ONE square root per row; its `4 × 1 × 4096`
  output is reshaped to 16384 entries.

  Over the extended reals the two are one function of the arguments (`NearestCentroid.result`):
  • products commute under the sums, so the two programs' projections, norms and inner products agree;
  • `t ↦ √(max (t + n) 0)` is monotone, a monotone map commutes with a minimum, and the two spellings of a squared
    distance differ by commuting and reassociating a sum (Law.lean, `sqrt_min_eq_min_sqrt`) — no finiteness is needed,
    so the precondition is never opened;
  • the kernel's four blocks tile its output, and the reshape keeps row-major positions (RegionValue.lean,
    KernelRun.lean).
  The frames of the two kernel programs are the launch's; the reference's is its run with the result dropped.
  The idealization rewrote nothing, so there is nothing to preserve.
-/
import proofs.«168638_g25297357373548_cont_9to1_2195_15_alg».proof.Defs
import proofs.«168638_g25297357373548_cont_9to1_2195_15_alg».proof.Proof.Gen.Kernel
import proofs.«168638_g25297357373548_cont_9to1_2195_15_alg».proof.Proof.Gen.Kernel.Skeleton
import proofs.«168638_g25297357373548_cont_9to1_2195_15_alg».proof.Proof.Gen.Kernel.Launch
import proofs.«168638_g25297357373548_cont_9to1_2195_15_alg».proof.Proof.Gen.Kernel.Points
import proofs.«168638_g25297357373548_cont_9to1_2195_15_alg».proof.Proof.Gen.Kernel.Frame
import proofs.«168638_g25297357373548_cont_9to1_2195_15_alg».proof.Proof.Gen.KernelIdeal
import proofs.«168638_g25297357373548_cont_9to1_2195_15_alg».proof.Proof.Gen.KernelIdeal.Skeleton
import proofs.«168638_g25297357373548_cont_9to1_2195_15_alg».proof.Proof.Gen.KernelIdeal.Launch
import proofs.«168638_g25297357373548_cont_9to1_2195_15_alg».proof.Proof.Gen.KernelIdeal.Points
import proofs.«168638_g25297357373548_cont_9to1_2195_15_alg».proof.Proof.Gen.KernelIdeal.Frame
import proofs.«168638_g25297357373548_cont_9to1_2195_15_alg».proof.Proof.Gen.ReferenceIdeal
import proofs.«168638_g25297357373548_cont_9to1_2195_15_alg».proof.Proof.Gen.Pre_finite_inputs
import proofs.«168638_g25297357373548_cont_9to1_2195_15_alg».proof.Proof.Gen.ReferenceIdeal.Run
import proofs.«168638_g25297357373548_cont_9to1_2195_15_alg».proof.Proof.Gen.ReferenceIdeal.Read
import proofs.«168638_g25297357373548_cont_9to1_2195_15_alg».proof.Proof.RefValue
import proofs.«168638_g25297357373548_cont_9to1_2195_15_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem Cert.NearestCentroid

/-- The reference's result array is `result` of its arguments: row by row (RefValue.lean). -/
theorem reference_result (x0 : (⟨Cert.ReferenceIdeal.S16384x512, .f32⟩ : BufTy).Contents (Elt Ideal))
    (x1 : (⟨Cert.ReferenceIdeal.S128x512, .f32⟩ : BufTy).Contents (Elt Ideal))
    (x2 : (⟨Cert.ReferenceIdeal.S64x128, .f32⟩ : BufTy).Contents (Elt Ideal)) :
    Cert.ReferenceIdeal.Read.val_main_v19 (F := Ideal) x0 x1 x2 = result x0 x1 x2 := funext fun j => by
  obtain ⟨r, rfl⟩ : ∃ r : Fin 16384, j = ix1 r := ⟨j 0, eq_ix1 j⟩
  exact Cert.ReferenceIdeal.RefValue.result_at x0 x1 x2 r

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `result` of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, reference_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
